-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S256x256 : Shape := ⟨2, ![256, 256]⟩
abbrev S256 : Shape := ⟨1, ![256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x8192x256 .f32) (main_arg1 : FVec F S256x256 .f32) (main_arg2 : FVec F S256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x8192x256 : Shape := ⟨3, ![16, 8192, 256]⟩
abbrev S256x256 : Shape := ⟨2, ![256, 256]⟩
abbrev S256 : Shape := ⟨1, ![256]⟩
abbrev S131072x256 : Shape := ⟨2, ![131072, 256]⟩
abbrev S1x256 : Shape := ⟨2, ![1, 256]⟩
abbrev S4096x256 : Shape := ⟨2, ![4096, 256]⟩

abbrev nBuf : Space → Nat
  | .hbm => 9
  | .vmem => 6
  | .smem => 0
  | _ => 0

abbrev bufTy : (tb : Table) → Fin (tcTables nBuf tb) → BufTy
  | .hbm, ⟨0, _⟩ => ⟨S16x8192x256, .f32⟩
  | .hbm, ⟨1, _⟩ => ⟨S256x256, .f32⟩
  | .hbm, ⟨2, _⟩ => ⟨S256, .f32⟩
  | .hbm, ⟨3, _⟩ => ⟨S131072x256, .f32⟩
  | .hbm, ⟨4, _⟩ => ⟨S1x256, .f32⟩
  | .hbm, ⟨5, _⟩ => ⟨S256x256, .f32⟩
  | .hbm, ⟨6, _⟩ => ⟨S256x256, .bf16⟩
  | .hbm, ⟨7, _⟩ => ⟨S131072x256, .f32⟩
  | .hbm, ⟨8, _⟩ => ⟨S16x8192x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192x256_S131072x256 : S16x8192x256.ShapeCasts S131072x256
  shapeCasts_S256_S1x256 : S256.ShapeCasts S1x256
  transposes_S256x256_S256x256_1_0 : S256x256.Transposes [1, 0] S256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S131072x256_S16x8192x256 : S131072x256.ShapeCasts S16x8192x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S131072x256.size a
  hwx0_3 : ∀ i : grid0.Coords, EltTy.bits .f32 = 32 ∨ (Rect.block (s := S131072x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S256x256 : Shape := ⟨2, ![256, 256]⟩
abbrev S256 : Shape := ⟨1, ![256]⟩
abbrev S131072x256 : Shape := ⟨2, ![131072, 256]⟩
abbrev S1x256 : Shape := ⟨2, ![1, 256]⟩

abbrev nBuf : Space → Nat
  | .hbm => 11
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S256x256, .f32⟩
  | .hbm, ⟨2, _⟩ => ⟨S256, .f32⟩
  | .hbm, ⟨3, _⟩ => ⟨S131072x256, .f32⟩
  | .hbm, ⟨4, _⟩ => ⟨S256x256, .f32⟩
  | .hbm, ⟨5, _⟩ => ⟨S131072x256, .f32⟩
  | .hbm, ⟨6, _⟩ => ⟨S1x256, .f32⟩
  | .hbm, ⟨7, _⟩ => ⟨S131072x256, .f32⟩
  | .hbm, ⟨8, _⟩ => ⟨S131072x256, .f32⟩
  | .hbm, ⟨9, _⟩ => ⟨S131072x256, .f32⟩
  | .hbm, ⟨10, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S16x8192x256_S131072x256 : S16x8192x256.ShapeCasts S131072x256
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  shapeCasts_S131072x256_S16x8192x256 : S131072x256.ShapeCasts S16x8192x256
  dot_S131072x256_S256x256_S131072x256_1_0_0_1_n_n_wf : DotDims.WF S131072x256 S256x256 S131072x256 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.Linear.lean ====
/-
  The layer both programs compute, as one function on the extended reals.

  The input `x` of shape [16, 8192, 256] is read as 131072 token rows of 256 features. With `Wt` the
  transpose of the weight matrix (`Wt[k, q] = W[q, k]`) and `b` the bias, the value at token row `r` and
  output feature `q` is

      tanh (∑ k < 256, X[r, k] · Wt[k, q] + b[q]).

  Each row is treated by itself: nothing couples two token rows, which is why the rows may be cut into
  tiles of any height, each tile worked alone, and the tiles laid side by side again.
-/
import Idealize.ShloMosaic.PureOps.Ideal
import Idealize.ShloMosaic.Lib.ValueIdx

noncomputable section

namespace Cert.RowLinear

open Idealize.ShloMosaic Idealize.ShloMosaic.ValueIdx

/-- The token rows, flattened: 131072 rows of 256 features. -/
abbrev Rows : Shape := ⟨2, ![131072, 256]⟩
/-- The square weight matrix. -/
abbrev Sq : Shape := ⟨2, ![256, 256]⟩
/-- The bias vector. -/
abbrev Feat : Shape := ⟨1, ![256]⟩

/-- One entry of the layer: `tanh` of the affine form of token row `r` against column `q` of `Wt`. -/
def cell (X : Rows.Idx → EReal) (Wt : Sq.Idx → EReal) (b : Feat.Idx → EReal) (r : Fin 131072) (q : Fin 256) : EReal :=
  Ideal.tanh (∑ k : Fin 256, X (ix2 r k) * Wt (ix2 k q) + b (ix1 q))

/-- The layer on all the token rows. -/
def layer (X : Rows.Idx → EReal) (Wt : Sq.Idx → EReal) (b : Feat.Idx → EReal) : Rows.Idx → EReal :=
  fun i => cell X Wt b (i 0) (i 1)

theorem layer_apply (X : Rows.Idx → EReal) (Wt : Sq.Idx → EReal) (b : Feat.Idx → EReal) (r : Fin 131072) (q : Fin 256) :
    layer X Wt b (ix2 r q) = cell X Wt b r q := rfl

end Cert.RowLinear

end
-- ==== Proof.TileBody.lean ====
/-
  What the kernel body computes on one tile of 4096 token rows, entry by entry.

  The body loads the tile `x0` (4096 × 256), the transposed weights `x1` (256 × 256, already narrowed to
  bf16, which on the extended reals changes nothing) and the bias row `x2` (1 × 256), multiplies the tile by
  the weights into a zero accumulator, adds the bias row to every row and applies `tanh`. At row `p` and
  feature `q` that is

      tanh (∑ k < 256, x0[p, k] · x1[k, q] + x2[0, q]).

  The matrix product over the one contracted axis is read as a sum over `Fin 256`: the contraction index of
  the product has a single coordinate, and the operand indices at output index `(p, q)` and contraction
  coordinate `k` are `(p, k)` on the left and `(k, q)` on the right.
-/
import proofs.«405508_j38465727103157_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.TileBody

open Cert.KernelIdeal Cert.KernelIdeal.Gen Idealize.ShloMosaic Idealize.ShloMosaic.ValueIdx

/-! ## The operand indices of the tile's matrix product -/

theorem lhs_tile_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_tile_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_tile_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_tile_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The tile's product into the zero accumulator, at row `p` and feature `q`: the sum over the 256 contracted
    features of the left operand at `(p, k)` times the right operand at `(k, q)`. -/
theorem tile_product_apply (l : FVec Ideal S4096x256 .bf16) (r : FVec Ideal S256x256 .bf16) (p : Fin 4096) (q : Fin 256) :
    matmul dot_S4096x256_S256x256_S4096x256_1_0_0_1_n_n none l r (constant (F := Ideal) S4096x256 .f32 0x00000000#32) (ix2 p q)
      = ∑ k : Fin 256, l (ix2 p k) * r (ix2 k q) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p q) ((contrEquiv1 dot_S4096x256_S256x256_S4096x256_1_0_0_1_n_n 256 rfl rfl).symm k) = ix2 p k := funext fun a => Fin.ext (by
    match a with
    | ⟨0, _⟩ => exact lhs_tile_0 _ _
    | ⟨1, _⟩ => exact (lhs_tile_1 _ _).trans hk)
  have er : dot_S4096x256_S256x256_S4096x256_1_0_0_1_n_n.rhsIdx (ix2 p q) ((contrEquiv1 dot_S4096x256_S256x256_S4096x256_1_0_0_1_n_n 256 rfl rfl).symm k) = ix2 k q := funext fun a => Fin.ext (by
    match a with
    | ⟨0, _⟩ => exact (rhs_tile_0 _ _).trans hk
    | ⟨1, _⟩ => exact rhs_tile_1 _ _)
  rw [el, er]

/-- The bias row spread over the tile's rows reads, at `(p, q)`, the row's entry `q`. -/
theorem bias_rows_apply (v : FVec Ideal S1x256 .f32) (p : Fin 4096) (q : Fin 256) :
    broadcastTo S4096x256 v broadcasts_S1x256_S4096x256 (ix2 p q) = v (ix2 0 q) :=
  broadcastTo_apply v broadcasts_S1x256_S4096x256 (ix2 p q) (ix2 0 q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-- THE BODY'S VALUE at row `p`, feature `q` of the tile. -/
theorem body_apply (x0 : Vec Ideal S4096x256 .f32) (x1 : Vec Ideal S256x256 .bf16) (x2 : Vec Ideal S1x256 .f32)
    (p : Fin 4096) (q : Fin 256) :
    k0_pay1 (F := Ideal) x0 x1 x2 (ix2 p q) = Ideal.tanh (∑ k : Fin 256, x0 (ix2 p k) * x1 (ix2 k q) + x2 (ix2 0 q)) := by
  unfold k0_pay1
  show Ideal.tanh (matmul dot_S4096x256_S256x256_S4096x256_1_0_0_1_n_n none
      (truncf .bf16 (shapeCast S4096x256 x0 shapeCasts_S4096x256_S4096x256) bitsLt_bf16_f32)
      (shapeCast S256x256 x1 shapeCasts_S256x256_S256x256) (constant (F := Ideal) S4096x256 .f32 0x00000000#32) (ix2 p q)
    + broadcastTo S4096x256 (shapeCast S1x256 x2 shapeCasts_S1x256_S1x256) broadcasts_S1x256_S4096x256 (ix2 p q)) = _
  rw [tile_product_apply, bias_rows_apply, shapeCast_self, shapeCast_self, shapeCast_self]
  rfl

end Cert.KernelIdeal.TileBody

end
-- ==== Proof.TileArray.lean ====
/-
  The array the kernel leaves behind, as the layer of the argument arrays.

  Before the tiles are worked, the host lines reshape `x` to its 131072 token rows, transpose the weights
  (and narrow them to bf16, the identity on the extended reals) and reshape the bias to one row. The 32
  grid points then each take one tile of 4096 consecutive token rows: point `t` reads rows
  `4096·t … 4096·t + 4095` of the token rows, the whole transposed weight matrix and the whole bias row, and
  writes rows `4096·t … 4096·t + 4095` of the result. Because the layer treats each row by itself, what point
  `t` writes is exactly its tile of the layer of the WHOLE arrays; and since `32 · 4096 = 131072`, the
  tiles cover every row (row `r` lies in the tile of point `r / 4096`), so the array ends holding the layer.
-/
import proofs.«405508_j38465727103157_3_alg».proof.Proof.Gen.KernelIdeal.Frame
import proofs.«405508_j38465727103157_3_alg».proof.Proof.Linear
import proofs.«405508_j38465727103157_3_alg».proof.Proof.TileBody
import Idealize.ShloMosaic.Lib.StableHlo.Run

set_option maxRecDepth 16384

noncomputable section

namespace Cert.KernelIdeal.TileArray

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

/-! ## The three arrays as the tiles find them -/

/-- The token rows: `x` reshaped. -/
theorem rows_entry (c : Dev nD) :
    (V m c main_v0 : S131072x256.Idx → EReal)
      = shapeCast S131072x256 (m ((c : Thread nD τ).loc main_arg0)) shapeCasts_S16x8192x256_S131072x256 := by
  show StableHlo.after hostOps0 (fun b => m (c, b)) (Proc.devRef .tc main_v0) = _
  after_results <;> rfl

/-- The weights: `W` transposed, then narrowed. -/
theorem weights_entry (c : Dev nD) :
    (V m c main_v3 : S256x256.Idx → EReal)
      = (truncf (F := Ideal) .bf16 (transpose S256x256 [1, 0] (m ((c : Thread nD τ).loc main_arg1) : FVec Ideal S256x256 .f32) transposes_S256x256_S256x256_1_0) bitsLt_bf16_f32 : FVec Ideal S256x256 .bf16) := by
  show StableHlo.after hostOps0 (fun b => m (c, b)) (Proc.devRef .tc main_v3) = _
  after_results <;> rfl

/-- The bias as one row. -/
theorem bias_entry (c : Dev nD) :
    (V m c main_v1 : S1x256.Idx → EReal)
      = shapeCast S1x256 (m ((c : Thread nD τ).loc main_arg2)) shapeCasts_S256_S1x256 := by
  show StableHlo.after hostOps0 (fun b => m (c, b)) (Proc.devRef .tc main_v1) = _
  after_results <;> rfl

/-- The bias row's entry `q` is the bias vector's entry `q`. -/
theorem bias_row_apply (bvec : S256.Idx → EReal) (q : Fin 256) :
    shapeCast S1x256 bvec shapeCasts_S256_S1x256 (ix2 0 q) = bvec (ix1 q) :=
  shapeCast_apply bvec shapeCasts_S256_S1x256 (ix2 0 q) (ix1 q)
    (by rewrite [Shape.rowMajor_val_one, Shape.rowMajor_val_two]; show q.val = 0 * 256 + q.val; omega)

/-! ## The layer of the argument arrays -/

/-- The token rows, the transposed weights and the bias, read off the argument arrays. -/
abbrev tokenRows (c : Dev nD) : S131072x256.Idx → EReal :=
  shapeCast S131072x256 (m ((c : Thread nD τ).loc main_arg0)) shapeCasts_S16x8192x256_S131072x256
abbrev weightsT (c : Dev nD) : S256x256.Idx → EReal :=
  transpose S256x256 [1, 0] (m ((c : Thread nD τ).loc main_arg1) : FVec Ideal S256x256 .f32) transposes_S256x256_S256x256_1_0
abbrev biasVec (c : Dev nD) : S256.Idx → EReal := m ((c : Thread nD τ).loc main_arg2)

/-- What the result array is to hold: the layer of the token rows. -/
abbrev rowsOut (c : Dev nD) : S131072x256.Idx → EReal :=
  Cert.RowLinear.layer (tokenRows m c) (weightsT m c) (biasVec m c)

/-! ## Which rows a grid point works -/

/-- Point `t` takes tile `t` of the token rows and of the result; the weights and the bias are whole at every point. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of tile `t` is row `4096·t + p` of the array. -/
abbrev rowOf (t : Fin cfg0.N) (p : Fin 4096) : Fin 131072 :=
  ⟨t.val * 4096 + p.val, by have ht : t.val < 32 := (N_0 ▸ t.isLt : t.val < 32); have hp := p.isLt; omega⟩

/-- The tile of token rows point `t` is handed. -/
theorem rows_tile (c : Dev nD) (t : Fin cfg0.N) (p : Fin 4096) (k : Fin 256) :
    iblk m c 0 t (ix2 p k) = tokenRows m c (ix2 (rowOf t p) k) := by
  obtain ⟨e0, e1, -⟩ := tile_index t
  show V m c main_v0 (((cfg0.win 0).blk t).view.emb (ix2 p k)) = _
  rw [rows_entry]
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * k.val = k.val; omega

/-- The weights point `t` is handed: all of them. -/
theorem weights_tile (c : Dev nD) (t : Fin cfg0.N) (k q : Fin 256) :
    iblk m c 1 t (ix2 k q) = weightsT m c (ix2 k q) := by
  obtain ⟨-, -, e2, e3, -⟩ := tile_index t
  show V m c main_v3 (((cfg0.win 1).blk t).view.emb (ix2 k q)) = _
  rw [weights_entry]
  show weightsT m c _ = _
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- The bias row point `t` is handed: the bias. -/
theorem bias_tile (c : Dev nD) (t : Fin cfg0.N) (q : Fin 256) :
    iblk m c 2 t (ix2 0 q) = biasVec m c (ix1 q) := by
  obtain ⟨-, -, -, -, e4, e5, -⟩ := tile_index t
  show V m c main_v1 (((cfg0.win 2).blk t).view.emb (ix2 0 q)) = _
  rw [bias_entry]
  refine Eq.trans ?_ (bias_row_apply (biasVec m c) q)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-! ## What a point writes back -/

theorem zero_offsets : (![0, 0] : Fin 2 → Nat) = fun _ => 0 := funext fun a => by fin_cases a <;> rfl

/-- WHAT POINT `t` WRITES BACK is its tile of the layer of the whole arrays. -/
theorem written_tile (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3]
  unfold out0_3
  rw [View.canon_unit_zero zero_offsets]
  simp only [View.ld_unit_zero (S := S4096x256) zero_offsets, View.ld_unit_zero (S := S256x256) zero_offsets,
    View.ld_unit_zero (S := S1x256) zero_offsets]
  obtain ⟨-, -, -, -, -, -, e6, e7⟩ := tile_index t
  funext j
  obtain ⟨p, q, rfl⟩ : ∃ (p : Fin 4096) (q : Fin 256), j = ix2 p q := ⟨j 0, j 1, eq_ix2 j⟩
  show k0_pay1 (F := Ideal) (iblk m c 0 t) (iblk m c 1 t) (iblk m c 2 t) (ix2 p q) = rowsOut m c (((cfg0.win 3).blk t).view.emb (ix2 p q))
  have hemb : ((cfg0.win 3).blk t).view.emb (ix2 p q) = ix2 (rowOf t p) q := by
    funext a; apply Fin.ext
    match a with
    | ⟨0, _⟩ => show win0_3.index t (0 : Fin 2) * 4096 + 1 * p.val = t.val * 4096 + p.val; omega
    | ⟨1, _⟩ => show win0_3.index t (1 : Fin 2) * 256 + 1 * q.val = q.val; omega
  rw [hemb]
  refine (Cert.KernelIdeal.TileBody.body_apply (iblk m c 0 t) (iblk m c 1 t) (iblk m c 2 t) p q).trans ?_
  show _ = Cert.RowLinear.cell (tokenRows m c) (weightsT m c) (biasVec m c) (rowOf t p) q
  unfold Cert.RowLinear.cell
  rw [bias_tile m c t q]
  refine congrArg (fun s => Ideal.tanh (s + biasVec m c (ix1 q))) (Finset.sum_congr rfl fun k _ => ?_)
  rw [rows_tile m c t p k, weights_tile m c t k q]

/-! ## The tiles cover the rows -/

/-- A row-and-feature index lies in point `t`'s tile iff each coordinate lies in the tile's range on its axis. -/
theorem mem_tile (t : Fin cfg0.N) (i : S131072x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v4).slice (win0_3.rect t)).set ↔ _
  rw [View.set_slice_whole, Rect.mem_set_unit]
  exact Iff.rfl

/-- Every index is in the tile of the point `row / 4096`. -/
theorem tiles_cover (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  let t : Fin cfg0.N := ⟨(i 0).val / 4096, by rw [show cfg0.N = 32 from N_0]; omega⟩
  obtain ⟨-, -, -, -, -, -, e6, e7⟩ := tile_index t
  have ht : t.val = (i 0).val / 4096 := rfl
  refine ⟨t, flush0_3 t, ?_⟩
  rw [mem_tile]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

/-- THE RESULT ARRAY after all 32 points: the layer of the token rows. -/
theorem rows_final (c : Dev nD) : (dats m 0 c).arrAt 3 cfg0.N = rowsOut m c :=
  (dats m 0 c).arrAt_eq_of_cover 3 (rowsOut m c) (fun t _ => written_tile m c t) tiles_cover

end Cert.KernelIdeal.TileArray

end
-- ==== Proof.TileRun.lean ====
/-
  The kernel program's run, with its result named.

  After the 32 tiles are written the result array holds the layer of the token rows; the one host line after
  the tiles reshapes those 131072 rows back to [16, 8192, 256]. So every execution ends with the result at
  the reshaped layer of the argument arrays, and the arguments as they were.
-/
import proofs.«405508_j38465727103157_3_alg».proof.Proof.TileArray

set_option maxRecDepth 16384

noncomputable section

namespace Cert.KernelIdeal.TileRun

open Cert.KernelIdeal Cert.KernelIdeal.Gen Cert.KernelIdeal.TileArray Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The program's result as a function of the argument arrays: the layer, reshaped back. -/
abbrev result (c : Dev nD) : S16x8192x256.Idx → EReal :=
  shapeCast S16x8192x256 (rowsOut m c) shapeCasts_S131072x256_S16x8192x256

/-- The host line after the tiles reads the array the tiles left and reshapes it. -/
theorem result_tail (c : Dev nD) :
    (Pipeline.afterTail₀ cfgs (dats m) 0 (V0 m) [hostOps1] c main_v5 : S16x8192x256.Idx → EReal) = result m c := by
  unfold Pipeline.afterTail₀
  show StableHlo.after hostOps1 _ (Proc.devRef .tc main_v5) = _
  after_results
  have e : (Pipeline.withArrays (cfgs 0).spec c (V0 m c) (fun w => (dats m 0 c).arrAt w (cfgs 0).N) (Proc.devRef .tc main_v4) : S131072x256.Idx → EReal) = rowsOut m c :=
    (Pipeline.withArrays_arr spec0 launch0.win.arr_inj c _ _ 3).trans (rows_final m c)
  exact congrArg (fun A : S131072x256.Idx → EReal => shapeCast S16x8192x256 A shapeCasts_S131072x256_S16x8192x256) e

/-- Every weakly fair execution of the kernel program terminates with the result at the reshaped layer of the
    argument arrays and the argument arrays unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (result_tail m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.TileRun

end
-- ==== Proof.RefSide.lean ====
/-
  The reference computes the same layer.

  The reference reshapes `x` to its 131072 token rows, transposes `W`, takes ONE matrix product of all the
  rows with the transposed weights, adds the bias (spread first to a row, then over all rows) and applies
  `tanh`. Read at row `r` and feature `q`, the product is the sum over the 256 contracted features of the
  row's entry `(r, k)` times the transposed weight `(k, q)`, and the spread bias is the bias entry `q`: the
  layer's entry `(r, q)`.
-/
import proofs.«405508_j38465727103157_3_alg».proof.Proof.Gen.ReferenceIdeal.Run
import proofs.«405508_j38465727103157_3_alg».proof.Proof.Gen.ReferenceIdeal.Read
import proofs.«405508_j38465727103157_3_alg».proof.Proof.Linear

noncomputable section

namespace Cert.ReferenceIdeal.RowsValue

open Cert.ReferenceIdeal Cert.ReferenceIdeal.Gen Cert.ReferenceIdeal.Read Idealize.ShloMosaic Idealize.ShloMosaic.ValueIdx

/-- The product's left operand index at output `(r, q)`, contracted coordinate `k`: `(r, k)`. -/
theorem left_index (r : Fin 131072) (q k : Fin 256) : lidx_main_v2 (ix2 r q) k = ix2 r k :=
  funext fun a => match a with | ⟨0, _⟩ => rfl | ⟨1, _⟩ => rfl
/-- Its right operand index: `(k, q)`. -/
theorem right_index (r : Fin 131072) (q k : Fin 256) : ridx_main_v2 (ix2 r q) k = ix2 k q :=
  funext fun a => match a with | ⟨0, _⟩ => rfl | ⟨1, _⟩ => rfl
/-- The bias, spread to a row and then over the rows, is read at its entry `q`. -/
theorem bias_index (r : Fin 131072) (q : Fin 256) : idx_main_v3 (idx_main_v4 (ix2 r q)) = ix1 q :=
  funext fun a => match a with | ⟨0, _⟩ => rfl

/-- The reference before its last reshape is the layer of the reshaped `x`, the transposed `W` and `b`. -/
theorem rows_ref (x0 : S16x8192x256.Idx → EReal) (x1 : S256x256.Idx → EReal) (x2 : S256.Idx → EReal) :
    val_main_v6 (F := Ideal) x0 x1 x2
      = Cert.RowLinear.layer (val_main_v0 (F := Ideal) x0) (val_main_v1 (F := Ideal) x1) x2 := by
  funext i
  obtain ⟨r, q, rfl⟩ : ∃ (r : Fin 131072) (q : Fin 256), i = ix2 r q := ⟨i 0, i 1, eq_ix2 i⟩
  rw [val_main_v6_apply, val_main_v5_apply, val_main_v2_apply, val_main_v4_apply, val_main_v3_apply, bias_index]
  simp only [left_index, right_index]
  rfl

/-- The reference's result: the layer, reshaped back to [16, 8192, 256]. -/
theorem result_ref (x0 : S16x8192x256.Idx → EReal) (x1 : S256x256.Idx → EReal) (x2 : S256.Idx → EReal) :
    val_main_v7 (F := Ideal) x0 x1 x2
      = shapeCast S16x8192x256 (Cert.RowLinear.layer (shapeCast S131072x256 x0 shapeCasts_S16x8192x256_S131072x256)
          (transpose S256x256 [1, 0] x1 transposes_S256x256_S256x256_1_0) x2) shapeCasts_S131072x256_S16x8192x256 := by
  unfold val_main_v7
  rw [rows_ref]
  rfl

end Cert.ReferenceIdeal.RowsValue

end
-- ==== Proof.lean ====
/-
  The kernel and the reference compute one function.

  Both programs apply the same layer to every token row of `x`: `tanh (row · Wᵀ + b)`. The kernel cuts the
  131072 token rows into 32 tiles of 4096 rows and works each tile by itself, with the transposed weights
  narrowed to bf16 and the tile narrowed to bf16 before the product; the reference takes one product of all
  the rows. On the extended reals narrowing a float is the identity and a product into a zero accumulator is
  the plain sum of products, so at every row `r` and feature `q` both sides are

      tanh (∑ k < 256, x[r, k] · W[q, k] + b[q]),

  the very same sum of the very same terms: no law of arithmetic beyond reading the two programs is used,
  and in particular the finiteness of the inputs is never needed.

  The three frames: the kernel's two are the generated frame certificates; the reference's is its generated
  run with the result dropped. `preserves` is `True`: the idealized kernel is the kernel's own text.
-/
import proofs.«405508_j38465727103157_3_alg».proof.Defs
import proofs.«405508_j38465727103157_3_alg».proof.Proof.Gen.Kernel
import proofs.«405508_j38465727103157_3_alg».proof.Proof.Gen.Kernel.Skeleton
import proofs.«405508_j38465727103157_3_alg».proof.Proof.Gen.Kernel.Launch
import proofs.«405508_j38465727103157_3_alg».proof.Proof.Gen.Kernel.Points
import proofs.«405508_j38465727103157_3_alg».proof.Proof.Gen.Kernel.Frame
import proofs.«405508_j38465727103157_3_alg».proof.Proof.Gen.KernelIdeal
import proofs.«405508_j38465727103157_3_alg».proof.Proof.Gen.KernelIdeal.Skeleton
import proofs.«405508_j38465727103157_3_alg».proof.Proof.Gen.KernelIdeal.Launch
import proofs.«405508_j38465727103157_3_alg».proof.Proof.Gen.KernelIdeal.Points
import proofs.«405508_j38465727103157_3_alg».proof.Proof.Gen.KernelIdeal.Frame
import proofs.«405508_j38465727103157_3_alg».proof.Proof.Gen.ReferenceIdeal
import proofs.«405508_j38465727103157_3_alg».proof.Proof.Gen.ReferenceIdeal.Run
import proofs.«405508_j38465727103157_3_alg».proof.Proof.Gen.ReferenceIdeal.Read
import proofs.«405508_j38465727103157_3_alg».proof.Proof.Gen.Pre_finite_inputs
import proofs.«405508_j38465727103157_3_alg».proof.Proof.TileRun
import proofs.«405508_j38465727103157_3_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Run from memories that agree on `x`, `W` and `b`, the kernel ends with its result at the reshaped layer of
    its arguments, and the reference at the reshaped layer of its own: the same array. -/
theorem algebraic : Cert.algebraic_KernelIdeal_ReferenceIdeal := by
  intro m ρ m' ρ' _ hagree
  refine ⟨fun c => Cert.KernelIdeal.TileRun.result m c, Cert.KernelIdeal.TileRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.ReferenceIdeal.RowsValue.result_ref _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
